-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v45)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x600000 : Shape := ⟨2, ![2, 600000]⟩
abbrev S600000 : Shape := ⟨1, ![600000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S600000 : S_.BroadcastsInDim S600000 (![] : Fin 0 → Fin S600000.rank)
  reducesTo_S600000_S_d0 : S600000.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  main_v18

def fn {F : FTy → Type} [FloatOps F] (main_arg0 : FVec F S50000x128 .f32) (main_arg1 : IVec S2x600000 32) (main_arg2 : FVec F S600000 .f32) (main_arg3 : FVec F S128x128 .f32) (main_arg4 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S600000 .f32 := Host.absf main_arg2
  let main_cst_0 : FVec F S_ .f32 := constant S_ .f32 0x7F800000#32
  let main_v5 : FVec F S600000 .f32 := broadcastInDim S600000 ![] bcast_S_S600000 main_cst_0
  let main_v6 : IVec S600000 1 := cmpf .olt main_v4 main_v5
  let main_c_1 : IVec S_ 1 := constantI S_ 1 1#1
  let main_v7 : IVec S_ 1 := (fun x v => Host.reduce IntOp.andi x v reducesTo_S600000_S_d0 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_v13 main_v16
-- ==== Kernel.lean ====
abbrev S50000x128 : Shape := ⟨2, ![50000, 128]⟩
abbrev S2x600000 : Shape := ⟨2, ![2, 600000]⟩
abbrev S600000 : Shape := ⟨1, ![600000]⟩
abbrev S128x128 : Shape := ⟨2, ![128, 128]⟩
abbrev S128 : Shape := ⟨1, ![128]⟩
abbrev S50000 : Shape := ⟨1, ![50000]⟩
abbrev S1x600000 : Shape := ⟨2, ![1, 600000]⟩
abbrev S650000 : Shape := ⟨1, ![650000]⟩
abbrev S_ : Shape := ⟨0, ![]⟩
abbrev S650000x1 : Shape := ⟨2, ![650000, 1]⟩
abbrev S650000x128 : Shape := ⟨2, ![650000, 128]⟩
abbrev S5000x128 : Shape := ⟨2, ![5000, 128]⟩
abbrev S1x128 : Shape := ⟨2, ![1, 128]⟩

abbrev nBuf : Space → Nat
  | .hbm => 61
  | .vmem => 6
  | .smem => 0
  | _ => 0

abbrev bufTy : (tb : Table) → Fin (tcTables nBuf tb) → BufTy
  | .hbm, ⟨0, _⟩ => ⟨S50000x128, .f32⟩
  | .hbm, ⟨1, _⟩ => ⟨S2x600000, .i32⟩
  | .hbm, ⟨2, _⟩ => ⟨S600000, .f32⟩
  | .hbm, ⟨3, _⟩ => ⟨S128x128, .f32⟩
  | .hbm, ⟨4, _⟩ => ⟨S128, .f32⟩
  | .hbm, ⟨5, _⟩ => ⟨S50000, .i32⟩
  | .hbm, ⟨6, _⟩ => ⟨S1x600000, .i32⟩
  | .hbm, ⟨7, _⟩ => ⟨S600000, .i32⟩
  | .hbm, ⟨8, _⟩ => ⟨S650000, .i32⟩
  | .hbm, ⟨9, _⟩ => ⟨S1x600000, .i32⟩
  | .hbm, ⟨10, _⟩ => ⟨S600000, .i32⟩
  | .hbm, ⟨11, _⟩ => ⟨S650000, .i32⟩
  | .hbm, ⟨12, _⟩ => ⟨S_, .f32⟩
  | .hbm, ⟨13, _⟩ => ⟨S50000, .f32⟩
  | .hbm, ⟨14, _⟩ => ⟨S650000, .f32⟩
  | .hbm, ⟨15, _⟩ => ⟨S_, .f32⟩
  | .hbm, ⟨16, _⟩ => ⟨S50000, .f32⟩
  | .hbm, ⟨17, _⟩ => ⟨S650000x1, .i32⟩
  | .hbm, ⟨18, _⟩ => ⟨S50000, .f32⟩
  | .hbm, ⟨19, _⟩ => ⟨S50000, .f32⟩
  | .hbm, ⟨20, _⟩ => ⟨S_, .f32⟩
  | .hbm, ⟨21, _⟩ => ⟨S50000, .f32⟩
  | .hbm, ⟨22, _⟩ => ⟨S50000, .f32⟩
  | .hbm, ⟨23, _⟩ => ⟨S_, .i32⟩
  | .hbm, ⟨24, _⟩ => ⟨S650000, .i32⟩
  | .hbm, ⟨25, _⟩ => ⟨S650000, .i1⟩
  | .hbm, ⟨26, _⟩ => ⟨S_, .i32⟩
  | .hbm, ⟨27, _⟩ => ⟨S650000, .i32⟩
  | .hbm, ⟨28, _⟩ => ⟨S650000, .i32⟩
  | .hbm, ⟨29, _⟩ => ⟨S650000, .i32⟩
  | .hbm, ⟨30, _⟩ => ⟨S650000x1, .i32⟩
  | .hbm, ⟨31, _⟩ => ⟨S650000, .f32⟩
  | .hbm, ⟨32, _⟩ => ⟨S650000, .f32⟩
  | .hbm, ⟨33, _⟩ => ⟨S_, .i32⟩
  | .hbm, ⟨34, _⟩ => ⟨S650000, .i32⟩
  | .hbm, ⟨35, _⟩ => ⟨S650000, .i1⟩
  | .hbm, ⟨36, _⟩ => ⟨S_, .i32⟩
  | .hbm, ⟨37, _⟩ => ⟨S650000, .i32⟩
  | .hbm, ⟨38, _⟩ => ⟨S650000, .i32⟩
  | .hbm, ⟨39, _⟩ => ⟨S650000, .i32⟩
  | .hbm, ⟨40, _⟩ => ⟨S650000x1, .i32⟩
  | .hbm, ⟨41, _⟩ => ⟨S650000, .f32⟩
  | .hbm, ⟨42, _⟩ => ⟨S650000, .f32⟩
  | .hbm, ⟨43, _⟩ => ⟨S_, .i32⟩
  | .hbm, ⟨44, _⟩ => ⟨S650000, .i32⟩
  | .hbm, ⟨45, _⟩ => ⟨S650000, .i1⟩
  | .hbm, ⟨46, _⟩ => ⟨S_, .i32⟩
  | .hbm, ⟨47, _⟩ => ⟨S650000, .i32⟩
  | .hbm, ⟨48, _⟩ => ⟨S650000, .i32⟩
  | .hbm, ⟨49, _⟩ => ⟨S650000, .i32⟩
  | .hbm, ⟨50, _⟩ => ⟨S650000x1, .i32⟩
  | .hbm, ⟨51, _⟩ => ⟨S650000x128, .f32⟩
  | .hbm, ⟨52, _⟩ => ⟨S650000x1, .f32⟩
  | .hbm, ⟨53, _⟩ => ⟨S650000x128, .f32⟩
  | .hbm, ⟨54, _⟩ => ⟨S650000x128, .f32⟩
  | .hbm, ⟨55, _⟩ => ⟨S_, .f32⟩
  | .hbm, ⟨56, _⟩ => ⟨S50000x128, .f32⟩
  | .hbm, ⟨57, _⟩ => ⟨S650000x1, .i32⟩
  | .hbm, ⟨58, _⟩ => ⟨S50000x128, .f32⟩
  | .hbm, ⟨59, _⟩ => ⟨S128x128, .f32⟩
  | .hbm, ⟨60, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S128, .f32⟩
  | .local _ .vmem, ⟨4, _⟩ => ⟨S5000x128, .f32⟩
  | .local _ .vmem, ⟨5, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_c : Ref sig .tc := ⟨.hbm, 23, rfl⟩
abbrev main_v15 : Ref sig .tc := ⟨.hbm, 24, rfl⟩
abbrev main_v16 : Ref sig .tc := ⟨.hbm, 25, rfl⟩
abbrev main_c_2 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_c_3 : Ref sig .tc := ⟨.hbm, 33, rfl⟩
abbrev main_v23 : Ref sig .tc := ⟨.hbm, 34, rfl⟩
abbrev main_v24 : Ref sig .tc := ⟨.hbm, 35, rfl⟩
abbrev main_c_4 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_c_5 : Ref sig .tc := ⟨.hbm, 43, rfl⟩
abbrev main_v31 : Ref sig .tc := ⟨.hbm, 44, rfl⟩
abbrev main_v32 : Ref sig .tc := ⟨.hbm, 45, rfl⟩
abbrev main_c_6 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_cst_7 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  slices_S2x600000_S1x600000_0_0 : S2x600000.Slices ![0, 0] S1x600000
  shapeCasts_S1x600000_S600000 : S1x600000.ShapeCasts S600000
  concatenates_S600000_S50000_S650000_d0 : Shape.Concatenates [S600000, S50000] S650000 0
  slices_S2x600000_S1x600000_1_0 : S2x600000.Slices ![1, 0] S1x600000
  bcast_S_S50000 : S_.BroadcastsInDim S50000 (![] : Fin 0 → Fin S50000.rank)
  bcast_S650000_S650000x1_0 : S650000.BroadcastsInDim S650000x1 (![0] : Fin 1 → Fin S650000x1.rank)
  bcast_S_S650000 : S_.BroadcastsInDim S650000 (![] : Fin 0 → Fin S650000.rank)
  bcast_S650000x1_S650000x128_0_1 : S650000x1.BroadcastsInDim S650000x128 (![0, 1] : Fin 2 → Fin S650000x128.rank)
  bcast_S_S50000x128 : S_.BroadcastsInDim S50000x128 (![] : Fin 0 → Fin S50000x128.rank)
  transposes_S128x128_S128x128_1_0 : S128x128.Transposes [1, 0] S128x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  scatter_S50000_S650000x1_S650000_n_0_0_1_wf : ScatterDims.WF S50000 S650000x1 S650000 [] [0] [0] 1
  gather_S50000_S650000x1_S650000_n_0_n_n_0_1_1_wf : GatherDims.WF S50000 S650000x1 S650000 [] [0] [] [0] [] 1 ![1]
  gather_S50000x128_S650000x1_S650000x128_1_0_n_n_0_1_1128_wf : GatherDims.WF S50000x128 S650000x1 S650000x128 [1] [0] [] [0] [] 1 ![1, 128]
  scatter_S50000x128_S650000x1_S650000x128_1_0_0_1_wf : ScatterDims.WF S50000x128 S650000x1 S650000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S50000x128.size a
  hwx0_3 : ∀ i : grid0.Coords, EltTy.bits .f32 = 32 ∨ (Rect.block (s := S50000x128) S5000x128.size (cc0_transform_3 i) (hinb0_3 i)).WholeWords (EltTy.packing .f32)

variable [Facts₀]

def scatter_S50000_S650000x1_S650000_n_0_0_1 : ScatterDims S50000 S650000x1 S650000 where
  updateWindowDims := []
  insertedWindowDims := [0]
  scatterDimsToOperandDims := [0]
  indexVectorDim := 1
  wf := scatter_S50000_S650000x1_S650000_n_0_0_1_wf
def gather_S50000_S650000x1_S650000_n_0_n_n_0_1_1 : GatherDims S50000 S650000x1 S650000 where
  offsetDims := []
  collapsedSliceDims := [0]
  operandBatchingDims := []
  startIndicesBatchingDims := []
  startIndexMap := [0]
  indexVectorDim := 1
  sliceSizes := ![1]
  wf := gather_S50000_S650000x1_S650000_n_0_n_n_0_1_1_wf
def gather_S50000x128_S650000x1_S650000x128_1_0_n_n_0_1_1128 : GatherDims S50000x128 S650000x1 S650000x128 where
  offsetDims := [1]
  collapsedSliceDims := [0]
  operandBatchingDims := []
  startIndicesBatchingDims := []
  startIndexMap := [0]
  indexVectorDim := 1
  sliceSizes := ![1, 128]
  wf := gather_S50000x128_S650000x1_S650000x128_1_0_n_n_0_1_1128_wf
def scatter_S50000x128_S650000x1_S650000x128_1_0_0_1 : ScatterDims S50000x128 S650000x1 S650000x128 where
  updateWindowDims := [1]
  insertedWindowDims := [0]
  scatterDimsToOperandDims := [0]
  indexVectorDim := 1
  wf := scatter_S50000x128_S650000x1_S650000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v43) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v44) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v45) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S50000x128 : Shape := ⟨2, ![50000, 128]⟩
abbrev S2x600000 : Shape := ⟨2, ![2, 600000]⟩
abbrev S600000 : Shape := ⟨1, ![600000]⟩
abbrev S128x128 : Shape := ⟨2, ![128, 128]⟩
abbrev S128 : Shape := ⟨1, ![128]⟩
abbrev S50000 : Shape := ⟨1, ![50000]⟩
abbrev S1x600000 : Shape := ⟨2, ![1, 600000]⟩
abbrev S650000 : Shape := ⟨1, ![650000]⟩
abbrev S_ : Shape := ⟨0, ![]⟩
abbrev S650000x1 : Shape := ⟨2, ![650000, 1]⟩
abbrev S650000x128 : Shape := ⟨2, ![650000, 128]⟩
abbrev S1x128 : Shape := ⟨2, ![1, 128]⟩

abbrev nBuf : Space → Nat
  | .hbm => 64
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x600000, .i32⟩
  | .hbm, ⟨2, _⟩ => ⟨S600000, .f32⟩
  | .hbm, ⟨3, _⟩ => ⟨S128x128, .f32⟩
  | .hbm, ⟨4, _⟩ => ⟨S128, .f32⟩
  | .hbm, ⟨5, _⟩ => ⟨S50000, .i32⟩
  | .hbm, ⟨6, _⟩ => ⟨S1x600000, .i32⟩
  | .hbm, ⟨7, _⟩ => ⟨S600000, .i32⟩
  | .hbm, ⟨8, _⟩ => ⟨S650000, .i32⟩
  | .hbm, ⟨9, _⟩ => ⟨S1x600000, .i32⟩
  | .hbm, ⟨10, _⟩ => ⟨S600000, .i32⟩
  | .hbm, ⟨11, _⟩ => ⟨S650000, .i32⟩
  | .hbm, ⟨12, _⟩ => ⟨S_, .f32⟩
  | .hbm, ⟨13, _⟩ => ⟨S50000, .f32⟩
  | .hbm, ⟨14, _⟩ => ⟨S650000, .f32⟩
  | .hbm, ⟨15, _⟩ => ⟨S_, .f32⟩
  | .hbm, ⟨16, _⟩ => ⟨S50000, .f32⟩
  | .hbm, ⟨17, _⟩ => ⟨S650000x1, .i32⟩
  | .hbm, ⟨18, _⟩ => ⟨S50000, .f32⟩
  | .hbm, ⟨19, _⟩ => ⟨S50000, .f32⟩
  | .hbm, ⟨20, _⟩ => ⟨S_, .f32⟩
  | .hbm, ⟨21, _⟩ => ⟨S50000, .f32⟩
  | .hbm, ⟨22, _⟩ => ⟨S50000, .f32⟩
  | .hbm, ⟨23, _⟩ => ⟨S_, .i32⟩
  | .hbm, ⟨24, _⟩ => ⟨S650000, .i32⟩
  | .hbm, ⟨25, _⟩ => ⟨S650000, .i1⟩
  | .hbm, ⟨26, _⟩ => ⟨S_, .i32⟩
  | .hbm, ⟨27, _⟩ => ⟨S650000, .i32⟩
  | .hbm, ⟨28, _⟩ => ⟨S650000, .i32⟩
  | .hbm, ⟨29, _⟩ => ⟨S650000, .i32⟩
  | .hbm, ⟨30, _⟩ => ⟨S650000x1, .i32⟩
  | .hbm, ⟨31, _⟩ => ⟨S650000, .f32⟩
  | .hbm, ⟨32, _⟩ => ⟨S650000, .f32⟩
  | .hbm, ⟨33, _⟩ => ⟨S_, .i32⟩
  | .hbm, ⟨34, _⟩ => ⟨S650000, .i32⟩
  | .hbm, ⟨35, _⟩ => ⟨S650000, .i1⟩
  | .hbm, ⟨36, _⟩ => ⟨S_, .i32⟩
  | .hbm, ⟨37, _⟩ => ⟨S650000, .i32⟩
  | .hbm, ⟨38, _⟩ => ⟨S650000, .i32⟩
  | .hbm, ⟨39, _⟩ => ⟨S650000, .i32⟩
  | .hbm, ⟨40, _⟩ => ⟨S650000x1, .i32⟩
  | .hbm, ⟨41, _⟩ => ⟨S650000, .f32⟩
  | .hbm, ⟨42, _⟩ => ⟨S650000, .f32⟩
  | .hbm, ⟨43, _⟩ => ⟨S_, .i32⟩
  | .hbm, ⟨44, _⟩ => ⟨S650000, .i32⟩
  | .hbm, ⟨45, _⟩ => ⟨S650000, .i1⟩
  | .hbm, ⟨46, _⟩ => ⟨S_, .i32⟩
  | .hbm, ⟨47, _⟩ => ⟨S650000, .i32⟩
  | .hbm, ⟨48, _⟩ => ⟨S650000, .i32⟩
  | .hbm, ⟨49, _⟩ => ⟨S650000, .i32⟩
  | .hbm, ⟨50, _⟩ => ⟨S650000x1, .i32⟩
  | .hbm, ⟨51, _⟩ => ⟨S650000x128, .f32⟩
  | .hbm, ⟨52, _⟩ => ⟨S650000x1, .f32⟩
  | .hbm, ⟨53, _⟩ => ⟨S650000x128, .f32⟩
  | .hbm, ⟨54, _⟩ => ⟨S650000x128, .f32⟩
  | .hbm, ⟨55, _⟩ => ⟨S_, .f32⟩
  | .hbm, ⟨56, _⟩ => ⟨S50000x128, .f32⟩
  | .hbm, ⟨57, _⟩ => ⟨S650000x1, .i32⟩
  | .hbm, ⟨58, _⟩ => ⟨S50000x128, .f32⟩
  | .hbm, ⟨59, _⟩ => ⟨S128x128, .f32⟩
  | .hbm, ⟨60, _⟩ => ⟨S50000x128, .f32⟩
  | .hbm, ⟨61, _⟩ => ⟨S1x128, .f32⟩
  | .hbm, ⟨62, _⟩ => ⟨S50000x128, .f32⟩
  | .hbm, ⟨63, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_c : Ref sig .tc := ⟨.hbm, 23, rfl⟩
abbrev main_v15 : Ref sig .tc := ⟨.hbm, 24, rfl⟩
abbrev main_v16 : Ref sig .tc := ⟨.hbm, 25, rfl⟩
abbrev main_c_2 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_c_3 : Ref sig .tc := ⟨.hbm, 33, rfl⟩
abbrev main_v23 : Ref sig .tc := ⟨.hbm, 34, rfl⟩
abbrev main_v24 : Ref sig .tc := ⟨.hbm, 35, rfl⟩
abbrev main_c_4 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_c_5 : Ref sig .tc := ⟨.hbm, 43, rfl⟩
abbrev main_v31 : Ref sig .tc := ⟨.hbm, 44, rfl⟩
abbrev main_v32 : Ref sig .tc := ⟨.hbm, 45, rfl⟩
abbrev main_c_6 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_cst_7 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  concatenates_S600000_S50000_S650000_d0 : Shape.Concatenates [S600000, S50000] S650000 0
  slices_S2x600000_S1x600000_1_0 : S2x600000.Slices ![1, 0] S1x600000
  bcast_S_S50000 : S_.BroadcastsInDim S50000 (![] : Fin 0 → Fin S50000.rank)
  bcast_S650000_S650000x1_0 : S650000.BroadcastsInDim S650000x1 (![0] : Fin 1 → Fin S650000x1.rank)
  bcast_S_S650000 : S_.BroadcastsInDim S650000 (![] : Fin 0 → Fin S650000.rank)
  bcast_S650000x1_S650000x128_0_1 : S650000x1.BroadcastsInDim S650000x128 (![0, 1] : Fin 2 → Fin S650000x128.rank)
  bcast_S_S50000x128 : S_.BroadcastsInDim S50000x128 (![] : Fin 0 → Fin S50000x128.rank)
  transposes_S128x128_S128x128_1_0 : S128x128.Transposes [1, 0] S128x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  scatter_S50000_S650000x1_S650000_n_0_0_1_wf : ScatterDims.WF S50000 S650000x1 S650000 [] [0] [0] 1
  gather_S50000_S650000x1_S650000_n_0_n_n_0_1_1_wf : GatherDims.WF S50000 S650000x1 S650000 [] [0] [] [0] [] 1 ![1]
  gather_S50000x128_S650000x1_S650000x128_1_0_n_n_0_1_1128_wf : GatherDims.WF S50000x128 S650000x1 S650000x128 [1] [0] [] [0] [] 1 ![1, 128]
  scatter_S50000x128_S650000x1_S650000x128_1_0_0_1_wf : ScatterDims.WF S50000x128 S650000x1 S650000x128 [1] [0] [0] 1
  dot_S50000x128_S128x128_S50000x128_1_0_0_1_n_n_wf : DotDims.WF S50000x128 S128x128 S50000x128 [1] [0] [0] [1] [] []

variable [Facts₀]

def scatter_S50000_S650000x1_S650000_n_0_0_1 : ScatterDims S50000 S650000x1 S650000 where
  updateWindowDims := []
  insertedWindowDims := [0]
  scatterDimsToOperandDims := [0]
  indexVectorDim := 1
  wf := scatter_S50000_S650000x1_S650000_n_0_0_1_wf
def gather_S50000_S650000x1_S650000_n_0_n_n_0_1_1 : GatherDims S50000 S650000x1 S650000 where
  offsetDims := []
  collapsedSliceDims := [0]
  operandBatchingDims := []
  startIndicesBatchingDims := []
  startIndexMap := [0]
  indexVectorDim := 1
  sliceSizes := ![1]
  wf := gather_S50000_S650000x1_S650000_n_0_n_n_0_1_1_wf
def gather_S50000x128_S650000x1_S650000x128_1_0_n_n_0_1_1128 : GatherDims S50000x128 S650000x1 S650000x128 where
  offsetDims := [1]
  collapsedSliceDims := [0]
  operandBatchingDims := []
  startIndicesBatchingDims := []
  startIndexMap := [0]
  indexVectorDim := 1
  sliceSizes := ![1, 128]
  wf := gather_S50000x128_S650000x1_S650000x128_1_0_n_n_0_1_1128_wf
def scatter_S50000x128_S650000x1_S650000x128_1_0_0_1 : ScatterDims S50000x128 S650000x1 S650000x128 where
  updateWindowDims := [1]
  insertedWindowDims := [0]
  scatterDimsToOperandDims := [0]
  indexVectorDim := 1
  wf := scatter_S50000x128_S650000x1_S650000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.Dense.lean ====
/-
  The dense layer that both programs end with, as ONE function of three arrays over the extended reals.
  For a matrix `A` of 50000 rows and 128 columns, a square matrix `Wt` of side 128 and a vector `b` of 128 entries,

      affine A Wt b (r, j) = (∑ k < 128, A (r, k) · Wt (k, j)) + b j.

  Nothing here knows where `A`, `Wt` and `b` come from: in both programs `A` is the aggregated message array (the
  degree-normalised gather, scale and scatter-add over the edges and the self loops), `Wt` the transposed weight and
  `b` the bias, and neither side of the certificate ever opens them. The sum is a finite sum in a commutative
  monoid, so the order in which a program adds the 128 products does not matter and no finiteness is needed.
-/
import Idealize.ShloMosaic.PureOps.Ideal
import Idealize.ShloMosaic.Lib.ValueIdx

noncomputable section

open scoped BigOperators

namespace Cert.Dense

open Idealize.ShloMosaic Idealize.ShloMosaic.ValueIdx

/-- Row `r` of `A` against column `j` of `Wt`, plus entry `j` of `b`. -/
def affine (A : (⟨2, ![50000, 128]⟩ : Shape).Idx → EReal) (Wt : (⟨2, ![128, 128]⟩ : Shape).Idx → EReal)
    (b : (⟨1, ![128]⟩ : Shape).Idx → EReal) : (⟨2, ![50000, 128]⟩ : Shape).Idx → EReal :=
  fun i => (∑ k : Fin 128, A (ix2 (i 0) k) * Wt (ix2 k (i 1))) + b (ix1 (i 1))

/-- The same, at an index given by its two coordinates. -/
theorem affine_apply (A : (⟨2, ![50000, 128]⟩ : Shape).Idx → EReal) (Wt : (⟨2, ![128, 128]⟩ : Shape).Idx → EReal)
    (b : (⟨1, ![128]⟩ : Shape).Idx → EReal) (r : Fin 50000) (j : Fin 128) :
    affine A Wt b (ix2 r j) = (∑ k : Fin 128, A (ix2 r k) * Wt (ix2 k j)) + b (ix1 j) := rfl

end Cert.Dense

end
-- ==== Proof.BlockIndex.lean ====
/-
  The grid and its blocks. The kernel runs on a grid of 10 points; point `t` takes rows 5000·t … 5000·t + 4999 of the
  aggregate (all 128 columns), the whole transposed weight and the whole bias, and writes back the same rows of the
  result. Here: the index maps decided over the ten points, where an entry of each block sits in its array, and that
  the ten result blocks tile the 50000 rows (row `r` lies in block `r / 5000`).
-/
import proofs.«133537_j50328426775032_1_alg».proof.Proof.Gen.KernelIdeal.Value
import Idealize.ShloMosaic.Lib.ValueIdx
import proofs.«133537_j50328426775032_1_alg».proof.Proof.Dense

noncomputable section

namespace Cert.KernelIdeal.Whole

open Cert.KernelIdeal Cert.KernelIdeal.Gen Cert.KernelIdeal.Value Idealize.ShloMosaic Idealize.ShloMosaic.TcCoe Idealize.SL.Sem
open Idealize.ShloMosaic.ValueIdx Cert.Dense
open Idealize.ShloMosaic.Pipeline (Dat)

/-! ## The index maps over the grid -/

theorem zero2 : (![0, 0] : Fin 2 → Nat) = fun _ => 0 := funext fun a => by fin_cases a <;> rfl
theorem zero1 : (![0] : Fin 1 → Nat) = fun _ => 0 := funext fun a => by fin_cases a <;> rfl

/-- The aggregate's block moves with the result's block down the rows and never along the columns; the transposed
    weight and the bias stay at their one block; the result's row block index is at most 9. -/
theorem block_indices : ∀ t : Fin cfg0.N, win0_0.index t (0 : Fin 2) = win0_3.index t (0 : Fin 2)
    ∧ win0_0.index t (1 : Fin 2) = 0
    ∧ win0_1.index t (0 : Fin 2) = 0 ∧ win0_1.index t (1 : Fin 2) = 0
    ∧ win0_2.index t (0 : Fin 1) = 0
    ∧ win0_3.index t (1 : Fin 2) = 0 ∧ win0_3.index t (0 : Fin 2) ≤ 9 :=
  (by decide +kernel : ∀ t : Fin grid0.N, _)

/-- Every one of the ten row blocks is some point's. -/
theorem row_block_onto : ∀ q0 : Fin 10, ∃ t : Fin cfg0.N, win0_3.index t (0 : Fin 2) = q0.val :=
  (by decide +kernel : ∀ q0 : Fin 10, ∃ t : Fin grid0.N, win0_3.index t (0 : Fin 2) = q0.val)

/-- Row `p` of point `t`'s block, as a row of the array. -/
def row (t : Fin cfg0.N) (p : Fin 5000) : Fin 50000 :=
  ⟨win0_3.index t (0 : Fin 2) * 5000 + p.val, by have h := (block_indices t).2.2.2.2.2.2; have hp := p.isLt; omega⟩

/-! ## Where a block's entry sits in its array -/

theorem result_entry_at (t : Fin cfg0.N) (p : Fin 5000) (q : Fin 128) :
    ((cfg0.win 3).blk t).view.emb (ix2 p q) = ix2 (row t p) q := by
  obtain ⟨e0, e1, e2, e3, e4, e5, e6⟩ := block_indices t
  funext a; apply Fin.ext
  match a with
  | ⟨0, _⟩ => show win0_3.index t (0 : Fin 2) * 5000 + 1 * p.val = win0_3.index t (0 : Fin 2) * 5000 + p.val; omega
  | ⟨1, _⟩ => show win0_3.index t (1 : Fin 2) * 128 + 1 * q.val = q.val; omega

theorem aggregate_entry_at (t : Fin cfg0.N) (p : Fin 5000) (k : Fin 128) :
    ((cfg0.win 0).blk t).view.emb (ix2 p k) = ix2 (row t p) k := by
  obtain ⟨e0, e1, e2, e3, e4, e5, e6⟩ := block_indices t
  funext a; apply Fin.ext
  match a with
  | ⟨0, _⟩ => show win0_0.index t (0 : Fin 2) * 5000 + 1 * p.val = win0_3.index t (0 : Fin 2) * 5000 + p.val; omega
  | ⟨1, _⟩ => show win0_0.index t (1 : Fin 2) * 128 + 1 * k.val = k.val; omega

theorem weight_entry_at (t : Fin cfg0.N) (k q : Fin 128) :
    ((cfg0.win 1).blk t).view.emb (ix2 k q) = ix2 k q := by
  obtain ⟨e0, e1, e2, e3, e4, e5, e6⟩ := block_indices t
  funext a; apply Fin.ext
  match a with
  | ⟨0, _⟩ => show win0_1.index t (0 : Fin 2) * 128 + 1 * k.val = k.val; omega
  | ⟨1, _⟩ => show win0_1.index t (1 : Fin 2) * 128 + 1 * q.val = q.val; omega

theorem bias_entry_at (t : Fin cfg0.N) (q : Fin 128) :
    ((cfg0.win 2).blk t).view.emb (ix1 q) = ix1 q := by
  obtain ⟨e0, e1, e2, e3, e4, e5, e6⟩ := block_indices t
  funext a; apply Fin.ext
  match a with
  | ⟨0, _⟩ => show win0_2.index t (0 : Fin 1) * 128 + 1 * q.val = q.val; omega

/-! ## The blocks tile the array -/

/-- An index of the array is in point `t`'s block iff each coordinate is in the block's range on its axis. -/
theorem mem_row_block (t : Fin cfg0.N) (i : S50000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v45).slice (win0_3.rect t)).set ↔ _
  rw [View.set_slice_whole, Rect.mem_set_unit]
  exact Iff.rfl

/-- Every index of the result array is in the block of some point that writes back: row `r` in block `r / 5000`. -/
theorem row_blocks_cover (i : S50000x128.Idx) :
    ∃ t : Fin cfg0.N, (cfg0.win 3).flush t = true ∧ i ∈ ((cfg0.win 3).blk t).view.set := by
  have hi0 : (i 0).val < 50000 := (i 0).isLt
  have hi1 : (i 1).val < 128 := (i 1).isLt
  obtain ⟨t, ht⟩ := row_block_onto ⟨(i 0).val / 5000, by omega⟩
  have q0 : win0_3.index t (0 : Fin 2) = (i 0).val / 5000 := ht
  obtain ⟨e0, e1, e2, e3, e4, e5, e6⟩ := block_indices t
  refine ⟨t, flush0_3 t, ?_⟩
  rw [mem_row_block]
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 128 ≤ (i 1).val ∧ (i 1).val < win0_3.index t (1 : Fin 2) * 128 + 128; omega

end Cert.KernelIdeal.Whole

end
-- ==== Proof.BlockReads.lean ====
/-
  The three input blocks of a grid point read as entries of their arrays: row `p` of the aggregate's block at point
  `t` is row 5000·t + p of the aggregate, and the transposed weight's and the bias's one block are the arrays
  themselves. Each fact is about the windows only, so it is stated first for ANY contents `X` of the buffers and
  then taken at the contents the region finds.
-/
import proofs.«133537_j50328426775032_1_alg».proof.Proof.BlockIndex

noncomputable section

namespace Cert.KernelIdeal.Whole

open Cert.KernelIdeal Cert.KernelIdeal.Gen Cert.KernelIdeal.Value Idealize.ShloMosaic Idealize.ShloMosaic.TcCoe Idealize.SL.Sem
open Idealize.ShloMosaic.ValueIdx Cert.Dense
open Idealize.ShloMosaic.Pipeline (Dat)

/-! ## For any contents of the buffers -/

section AnyContents
variable {c : Dev nD} (X : (b : Ref sig .tc) → Buf (Elt Ideal) ((c : Thread nD τ).loc b))

theorem aggregate_block_any (t : Fin cfg0.N) (p : Fin 5000) (k : Fin 128) :
    ((cfg0.win 0).blk t).view.read (Elt Ideal) (X (Pipeline.arrRef spec0 0)) (ix2 p k) = X main_v43 (ix2 (row t p) k) := by
  show X main_v43 (((cfg0.win 0).blk t).view.emb (ix2 p k)) = _
  rw [aggregate_entry_at]

theorem weight_block_any (t : Fin cfg0.N) (k q : Fin 128) :
    ((cfg0.win 1).blk t).view.read (Elt Ideal) (X (Pipeline.arrRef spec0 1)) (ix2 k q) = X main_v44 (ix2 k q) := by
  show X main_v44 (((cfg0.win 1).blk t).view.emb (ix2 k q)) = _
  rw [weight_entry_at]

theorem bias_block_any (t : Fin cfg0.N) (q : Fin 128) :
    ((cfg0.win 2).blk t).view.read (Elt Ideal) (X (Pipeline.arrRef spec0 2)) (ix1 q) = X main_arg4 (ix1 q) := by
  show X main_arg4 (((cfg0.win 2).blk t).view.emb (ix1 q)) = _
  rw [bias_entry_at]

end AnyContents

/-! ## At the contents the region finds -/

variable (m : (ℓ : Loc nD τ sig) → Buf (Elt Ideal) ℓ)

theorem aggregate_block (c : Dev nD) (t : Fin cfg0.N) (p : Fin 5000) (k : Fin 128) :
    iblk m c 0 t (ix2 p k) = V m c main_v43 (ix2 (row t p) k) :=
  aggregate_block_any (V m c) t p k

theorem weight_block (c : Dev nD) (t : Fin cfg0.N) (k q : Fin 128) :
    iblk m c 1 t (ix2 k q) = V m c main_v44 (ix2 k q) :=
  weight_block_any (V m c) t k q

theorem bias_block (c : Dev nD) (t : Fin cfg0.N) (q : Fin 128) :
    iblk m c 2 t (ix1 q) = V m c main_arg4 (ix1 q) :=
  bias_block_any (V m c) t q

end Cert.KernelIdeal.Whole

end
-- ==== Proof.BlockPayload.lean ====
/-
  What the kernel body stores, read at one entry of the block. The body loads a block `a` of 5000 rows of the
  aggregate, the whole transposed weight `w` and the whole bias `v`, narrows `a` and `w` to bf16 (at the ideal
  values a change of format is the identity), multiplies them into a zero accumulator, and adds the bias laid out as
  one row and repeated down the 5000 rows. So its entry (p, q) is

      (∑ k < 128, a (p, k) · w (k, q)) + v q.

  The product contracts the second axis of `a` with the first axis of `w`; its contraction index has one axis of
  extent 128, which is re-indexed by `Fin 128`.
-/
import proofs.«133537_j50328426775032_1_alg».proof.Proof.Gen.KernelIdeal.Skeleton
import Idealize.ShloMosaic.Lib.ValueIdx
import Idealize.ShloMosaic.Lib.Pipeline.Value
import Idealize.ShloMosaic.PureOps.Ideal.Laws
import proofs.«133537_j50328426775032_1_alg».proof.Proof.Dense

noncomputable section

open scoped BigOperators

namespace Cert.KernelIdeal.Body

open Cert.KernelIdeal Cert.KernelIdeal.Gen Idealize.ShloMosaic Idealize.ShloMosaic.ValueIdx

/-! ## The product's operand indices, axis by axis -/

theorem lhs_axis0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_axis1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem rhs_axis0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhs_axis1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-! ## The product and the bias row at an entry -/

/-- The product into a zero accumulator, at entry `i`: row `i 0` of the left operand against column `i 1` of the right. -/
theorem product_entry {φ₁ φ₂ : FTy} (a : FVec Ideal S5000x128 φ₁) (w : FVec Ideal S128x128 φ₂) (i : S5000x128.Idx) :
    matmul dot_S5000x128_S128x128_S5000x128_1_0_0_1_n_n none a w (constant S5000x128 .f32 0x00000000#32) i
      = ∑ k : Fin 128, a (ix2 (i 0) k) * w (ix2 k (i 1)) := by
  simp only [matmul]
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx i ((contrEquiv1 dot_S5000x128_S128x128_S5000x128_1_0_0_1_n_n 128 rfl rfl).symm k) = ix2 (i 0) k := funext fun x => Fin.ext (by
    match x with
    | ⟨0, _⟩ => exact lhs_axis0 _ _
    | ⟨1, _⟩ => exact (lhs_axis1 _ _).trans hk)
  have er : dot_S5000x128_S128x128_S5000x128_1_0_0_1_n_n.rhsIdx i ((contrEquiv1 dot_S5000x128_S128x128_S5000x128_1_0_0_1_n_n 128 rfl rfl).symm k) = ix2 k (i 1) := funext fun x => Fin.ext (by
    match x with
    | ⟨0, _⟩ => exact (rhs_axis0 _ _).trans hk
    | ⟨1, _⟩ => exact rhs_axis1 _ _)
  exact congrArg₂ (· * ·) (congrArg a el) (congrArg w er)

/-- The bias, laid out as one row and repeated down the block, at entry `i`: its entry at column `i 1`. -/
theorem bias_entry {α : Type} (v : S128.Idx → α) (i : S5000x128.Idx) :
    broadcastTo S5000x128 (shapeCast S1x128 v shapeCasts_S128_S1x128) broadcasts_S1x128_S5000x128 i = v (ix1 (i 1)) := by
  refine (broadcastTo_apply _ broadcasts_S1x128_S5000x128 i (ix2 (0 : Fin 1) (i 1)) (fun x => by
    match x with
    | ⟨0, _⟩ => show (0 : Nat) = if (1 : Nat) = 1 then 0 else (i 0).val; rw [if_pos rfl]
    | ⟨1, _⟩ => show (i 1).val = if (128 : Nat) = 1 then 0 else (i 1).val; rw [if_neg (by decide)])).trans ?_
  exact shapeCast_apply v shapeCasts_S128_S1x128 (ix2 (0 : Fin 1) (i 1)) (ix1 (i 1)) (by
    rw [Shape.rowMajor_val_two, Shape.rowMajor_val_one]; show (i 1).val = 0 * 128 + (i 1).val; omega)

/-! ## The stored value at an entry -/

/-- Entry `i` of what the body stores: row `i 0` of the loaded aggregate block against column `i 1` of the loaded
    transposed weight, plus entry `i 1` of the loaded bias. -/
theorem payload_entry (a : Vec Ideal S5000x128 .f32) (w : Vec Ideal S128x128 .f32) (v : Vec Ideal S128 .f32) (i : S5000x128.Idx) :
    k0_pay1 (F := Ideal) a w v i = (∑ k : Fin 128, a (ix2 (i 0) k) * w (ix2 k (i 1))) + v (ix1 (i 1)) := by
  unfold k0_pay1
  rw [addf_apply, product_entry, bias_entry, shapeCast_self, shapeCast_self]
  rfl

/-- If row `p` of the loaded aggregate block is row `r` of an array `A`, column `q` of the loaded transposed weight is
    column `q` of `Wt` and entry `q` of the loaded bias is entry `q` of `b`, then entry (p, q) of what the body stores is
    entry (r, q) of the dense layer of `A`, `Wt` and `b`. -/
theorem payload_of_reads (A : (⟨2, ![50000, 128]⟩ : Shape).Idx → EReal) (Wt : (⟨2, ![128, 128]⟩ : Shape).Idx → EReal)
    (b : (⟨1, ![128]⟩ : Shape).Idx → EReal)
    (a : Vec Ideal S5000x128 .f32) (w : Vec Ideal S128x128 .f32) (v : Vec Ideal S128 .f32)
    (r : Fin 50000) (p : Fin 5000) (q : Fin 128)
    (ha : ∀ k : Fin 128, a (ix2 p k) = A (ix2 r k)) (hw : ∀ k : Fin 128, w (ix2 k q) = Wt (ix2 k q))
    (hv : v (ix1 q) = b (ix1 q)) :
    k0_pay1 (F := Ideal) a w v (ix2 p q) = Cert.Dense.affine A Wt b (ix2 r q) := by
  rw [Cert.Dense.affine_apply]
  refine (payload_entry a w v (ix2 p q)).trans ?_
  show (∑ k : Fin 128, a (ix2 p k) * w (ix2 k q)) + v (ix1 q) = _
  rw [hv]
  exact congrArg (· + b (ix1 q)) (Finset.sum_congr rfl fun k _ => by rw [ha k, hw k])

end Cert.KernelIdeal.Body

end
-- ==== Proof.SharedStages.lean ====
/-
  The kernel's program and the reference compute the aggregated messages and the transposed weight by the SAME host
  operations of the same arguments: self loops appended to the edge list, the degree by a scatter-add of the edge
  weights over the sources, its inverse square root gathered at both ends of every edge, the source rows gathered
  and scaled, a scatter-add over the targets; and the weight transposed. So what the kernel's region finds in those
  two arrays when it is entered is, operation for operation, the reference's stage of the launch contents of the
  arguments. Neither chain is opened: the two are compared as written.
-/
import proofs.«133537_j50328426775032_1_alg».proof.Proof.Gen.KernelIdeal.Frame
import proofs.«133537_j50328426775032_1_alg».proof.Proof.Gen.ReferenceIdeal.Read
import Idealize.ShloMosaic.Lib.StableHlo.Run

noncomputable section

namespace Cert.KernelIdeal.Entry

open Cert.KernelIdeal Cert.KernelIdeal.Gen Idealize.ShloMosaic Idealize.ShloMosaic.TcCoe Idealize.SL.Sem Idealize.ShloMosaic.StableHlo

variable {F : FTy → Type} [FloatOps F]
variable (m : (ℓ : Loc nD τ sig) → Buf (Elt F) ℓ)

set_option maxRecDepth 8192 in
set_option maxHeartbeats 2000000 in
/-- The aggregate array, as the region finds it, is the reference's aggregate stage of the launch contents of the
    node features, the edge list and the edge weights. -/
theorem aggregate_eq (c : Dev nD) :
    V m c main_v43 = Cert.ReferenceIdeal.Read.val_main_v43 (F := F) (m ((c.tc : Thread nD τ).loc main_arg0))
      (m ((c.tc : Thread nD τ).loc main_arg1)) (m ((c.tc : Thread nD τ).loc main_arg2)) := by
  show StableHlo.after hostOps0 (fun b => m (c, b)) (Proc.devRef .tc main_v43) = _
  dsimp only [hostOps0]
  after_results_simp <;> rfl

set_option maxRecDepth 8192 in
set_option maxHeartbeats 2000000 in
/-- The transposed weight, as the region finds it, is the reference's transpose stage of the launch contents of the weight. -/
theorem weightT_eq (c : Dev nD) :
    V m c main_v44 = Cert.ReferenceIdeal.Read.val_main_v44 (F := F) (m ((c.tc : Thread nD τ).loc main_arg3)) := by
  show StableHlo.after hostOps0 (fun b => m (c, b)) (Proc.devRef .tc main_v44) = _
  dsimp only [hostOps0]
  after_results_simp <;> rfl

end Cert.KernelIdeal.Entry

end
-- ==== Proof.BlocksToArray.lean ====
/-
  From blocks to the whole array. Entry (p, q) of what point `t` writes back is entry (5000·t + p, q) of the dense
  layer `Cert.Dense.affine` of the three arrays as the region finds them, that is, block `t` of that one function; the
  ten blocks tile the array, so after the run the result array IS that function. Finally the aggregate and the
  transposed weight the region finds are the reference's own stages of the arguments, and the bias is the argument.
-/
import proofs.«133537_j50328426775032_1_alg».proof.Proof.BlockReads
import proofs.«133537_j50328426775032_1_alg».proof.Proof.BlockPayload
import proofs.«133537_j50328426775032_1_alg».proof.Proof.SharedStages

noncomputable section

namespace Cert.KernelIdeal.Whole

open Cert.KernelIdeal Cert.KernelIdeal.Gen Cert.KernelIdeal.Value Idealize.ShloMosaic Idealize.ShloMosaic.TcCoe Idealize.SL.Sem
open Idealize.ShloMosaic.ValueIdx Cert.Dense
open Idealize.ShloMosaic.Pipeline (Dat)

variable (m : (ℓ : Loc nD τ sig) → Buf (Elt Ideal) ℓ) (ρ : Dev nD → PrngReg)

/-! ## What a point writes back -/

/-- For ANY three loaded blocks `a`, `w`, `v` and ANY three arrays `A`, `Wt`, `b`: if row `p` of `a` is row 5000·t + p of
    `A`, `w` is `Wt` and `v` is `b`, entry by entry, then what the body leaves of them at point `t`, written back, is
    block `t` of the dense layer of `A`, `Wt` and `b`. -/
theorem written_block_any (t : Fin cfg0.N) (a : Vec Ideal S5000x128 .f32) (w : Vec Ideal S128x128 .f32) (v : Vec Ideal S128 .f32)
    (A : (⟨2, ![50000, 128]⟩ : Shape).Idx → EReal) (Wt : (⟨2, ![128, 128]⟩ : Shape).Idx → EReal)
    (b : (⟨1, ![128]⟩ : Shape).Idx → EReal)
    (ha : ∀ (p : Fin 5000) (k : Fin 128), a (ix2 p k) = A (ix2 (row t p) k))
    (hw : ∀ k q : Fin 128, w (ix2 k q) = Wt (ix2 k q)) (hv : ∀ q : Fin 128, v (ix1 q) = b (ix1 q)) :
    (cfg0.win 3).cut (grid0.coords t) (out0_3 a w v) = ((cfg0.win 3).blk t).view.read (Elt Ideal) (affine A Wt b) := by
  unfold out0_3
  rw [View.canon_unit_zero zero2]
  simp only [View.ld_unit_zero (S := S5000x128) zero2, View.ld_unit_zero (S := S128x128) zero2, View.ld_unit_zero (S := S128) zero1]
  funext j
  obtain ⟨p, q, rfl⟩ : ∃ (p : Fin 5000) (q : Fin 128), j = ix2 p q := ⟨j 0, j 1, eq_ix2 j⟩
  show k0_pay1 (F := Ideal) a w v (ix2 p q) = affine A Wt b (((cfg0.win 3).blk t).view.emb (ix2 p q))
  rw [result_entry_at]
  exact Body.payload_of_reads A Wt b a w v (row t p) p q (ha p) (fun k => hw k q) (hv q)

/-- Point `t` writes back block `t` of the dense layer of the three arrays as the region finds them. -/
theorem written_block (c : Dev nD) (t : Fin cfg0.N) :
    (dats m 0 c).flushed 3 t
      = ((cfg0.win 3).blk t).view.read (Elt Ideal) (affine (V m c main_v43) (V m c main_v44) (V m c main_arg4)) := by
  rw [flushed3]
  exact written_block_any t (iblk m c 0 t) (iblk m c 1 t) (iblk m c 2 t) (V m c main_v43) (V m c main_v44) (V m c main_arg4)
    (aggregate_block m c t) (weight_block m c t) (bias_block m c t)

/-! ## The result array after the run -/

/-- After the run the result array is the dense layer of the three arrays as the region finds them. -/
theorem result_array (c : Dev nD) :
    (dats m 0 c).arrAt 3 cfg0.N = affine (V m c main_v43) (V m c main_v44) (V m c main_arg4) :=
  (dats m 0 c).arrAt_eq_of_cover 3 (affine (V m c main_v43) (V m c main_v44) (V m c main_arg4))
    (fun t _ => written_block m c t) row_blocks_cover

/-- The same over the arguments: the aggregate and the transposed weight the region finds are the reference's stages
    of the launch contents, the bias is the argument. -/
theorem result_of_arguments (c : Dev nD) :
    (dats m 0 c).arrAt 3 cfg0.N
      = affine (Cert.ReferenceIdeal.Read.val_main_v43 (F := Ideal) (m ((c.tc : Thread nD τ).loc main_arg0))
            (m ((c.tc : Thread nD τ).loc main_arg1)) (m ((c.tc : Thread nD τ).loc main_arg2)))
          (Cert.ReferenceIdeal.Read.val_main_v44 (F := Ideal) (m ((c.tc : Thread nD τ).loc main_arg3)))
          (m ((c.tc : Thread nD τ).loc main_arg4)) := by
  rw [result_array m c, Entry.aggregate_eq m c, Entry.weightT_eq m c, V_main_arg4 m c]

end Cert.KernelIdeal.Whole

end
-- ==== Proof.RefDense.lean ====
/-
  The reference's result, read at an index, is the dense layer `Cert.Dense.affine` of three of its own stages:
  the aggregated messages (its scatter-add stage, never opened here), the transposed weight (its transpose stage,
  never opened either) and the bias argument. The reference contracts the second axis of the aggregate with the
  first axis of the transposed weight, so its entry (r, j) is the sum over k of aggregate (r, k) times
  transposed weight (k, j); the bias reaches entry (r, j) through two broadcasts that both keep the column j.
-/
import proofs.«133537_j50328426775032_1_alg».proof.Proof.Gen.ReferenceIdeal.Read
import proofs.«133537_j50328426775032_1_alg».proof.Proof.Dense

noncomputable section

open scoped BigOperators

namespace Cert.ReferenceIdeal.RefValue

open Cert.ReferenceIdeal Cert.ReferenceIdeal.Gen Cert.ReferenceIdeal.Read
open Idealize.ShloMosaic Idealize.ShloMosaic.ValueIdx Cert.Dense

/-- The left operand of the contraction is read at (row of the output, k). -/
theorem left_index (i : S50000x128.Idx) (k : Fin 128) : lidx_main_v45 i k = ix2 (i 0) k :=
  funext fun a => Fin.ext (by match a with | ⟨0, _⟩ => rfl | ⟨1, _⟩ => rfl)

/-- The right operand of the contraction is read at (k, column of the output). -/
theorem right_index (i : S50000x128.Idx) (k : Fin 128) : ridx_main_v45 i k = ix2 k (i 1) :=
  funext fun a => Fin.ext (by match a with | ⟨0, _⟩ => rfl | ⟨1, _⟩ => rfl)

/-- Through its two broadcasts the bias is read at the output's column. -/
theorem bias_index (i : S50000x128.Idx) : idx_main_v46 (idx_main_v47 i) = ix1 (i 1) :=
  funext fun a => Fin.ext (by match a with | ⟨0, _⟩ => rfl)

/-- The reference's last stage is the dense layer of its aggregate stage, its transposed-weight stage and the bias. -/
theorem result_eq (x0 : (⟨S50000x128, .f32⟩ : BufTy).Contents (Elt Ideal)) (x1 : (⟨S2x600000, .i32⟩ : BufTy).Contents (Elt Ideal))
    (x2 : (⟨S600000, .f32⟩ : BufTy).Contents (Elt Ideal)) (x3 : (⟨S128x128, .f32⟩ : BufTy).Contents (Elt Ideal))
    (x4 : (⟨S128, .f32⟩ : BufTy).Contents (Elt Ideal)) :
    val_main_v48 (F := Ideal) x0 x1 x2 x3 x4
      = affine (val_main_v43 (F := Ideal) x0 x1 x2) (val_main_v44 (F := Ideal) x3) x4 := by
  funext i
  rw [val_main_v48_apply, val_main_v45_apply, val_main_v47_apply, val_main_v46_apply]
  simp only [left_index, right_index, bias_index, Ideal.addf_def]
  rfl

end Cert.ReferenceIdeal.RefValue

end
-- ==== Proof.lean ====
/-
  A graph-convolution layer: self loops are appended to the edge list, the degree of every node is the sum of the
  weights of the edges leaving it, every edge weight is scaled by the inverse square roots of the degrees at its two
  ends, the source rows of the node features are gathered, scaled and summed into their target rows (the aggregate),
  and a dense layer follows: result = aggregate · Wᵀ + b.

  Both programs compute the aggregate and the transposed weight by the same host operations. They differ only in the
  dense layer: the reference takes ONE product of the 50000 × 128 aggregate with the 128 × 128 transposed weight and
  adds the bias broadcast over the rows; the kernel walks ten blocks of 5000 rows, narrows the block and the
  transposed weight to bf16, multiplies them into a zero accumulator and adds the bias row. On the extended reals a
  change of format is the identity and both products are the same finite sum, so entry (r, j) of either result is

      (∑ k < 128, aggregate (r, k) · Wᵀ (k, j)) + b j          (`Cert.Dense.affine`).

  No law used here needs a finite input: the sums are finite sums in a commutative monoid and nothing is cancelled or
  distributed, so the precondition is never opened. The pass that idealizes the kernel rewrote nothing, so there is
  nothing to preserve. The frames of the two kernel programs are the generated ones; the reference's frame is its
  generated run with the result dropped.
-/
import proofs.«133537_j50328426775032_1_alg».proof.Defs
import proofs.«133537_j50328426775032_1_alg».proof.Proof.Gen.Kernel
import proofs.«133537_j50328426775032_1_alg».proof.Proof.Gen.Kernel.Skeleton
import proofs.«133537_j50328426775032_1_alg».proof.Proof.Gen.Kernel.Launch
import proofs.«133537_j50328426775032_1_alg».proof.Proof.Gen.Kernel.Points
import proofs.«133537_j50328426775032_1_alg».proof.Proof.Gen.Kernel.Frame
import proofs.«133537_j50328426775032_1_alg».proof.Proof.Gen.KernelIdeal
import proofs.«133537_j50328426775032_1_alg».proof.Proof.Gen.KernelIdeal.Skeleton
import proofs.«133537_j50328426775032_1_alg».proof.Proof.Gen.KernelIdeal.Launch
import proofs.«133537_j50328426775032_1_alg».proof.Proof.Gen.KernelIdeal.Points
import proofs.«133537_j50328426775032_1_alg».proof.Proof.Gen.KernelIdeal.Frame
import proofs.«133537_j50328426775032_1_alg».proof.Proof.Gen.ReferenceIdeal
import proofs.«133537_j50328426775032_1_alg».proof.Proof.Gen.Pre_finite_inputs
import proofs.«133537_j50328426775032_1_alg».proof.Proof.Gen.KernelIdeal.Value
import proofs.«133537_j50328426775032_1_alg».proof.Proof.Gen.ReferenceIdeal.Run
import proofs.«133537_j50328426775032_1_alg».proof.Proof.Gen.ReferenceIdeal.Read
import proofs.«133537_j50328426775032_1_alg».proof.Proof.BlocksToArray
import proofs.«133537_j50328426775032_1_alg».proof.Proof.RefDense
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- Run from memories that agree on the arguments, both programs end with the result array at the dense layer of the
    reference's aggregate stage, its transposed-weight stage and the bias, all taken of the kernel program's
    arguments: the kernel's ten blocks tile that one function, the reference's last stage is that function, and the
    agreement of the arguments carries the reference's stages over. -/
theorem algebraic : Cert.algebraic_KernelIdeal_ReferenceIdeal := by
  intro m ρ m' ρ' _ hagree
  refine ⟨fun c => Cert.Dense.affine
      (Cert.ReferenceIdeal.Read.val_main_v43 (F := Ideal) (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2)))
      (Cert.ReferenceIdeal.Read.val_main_v44 (F := Ideal) (m ((c.tc : Thread Cert.KernelIdeal.nD Cert.KernelIdeal.τ).loc Cert.KernelIdeal.main_arg3)))
      (m ((c.tc : Thread Cert.KernelIdeal.nD Cert.KernelIdeal.τ).loc Cert.KernelIdeal.main_arg4)), ?_, ?_⟩
  · exact (θ_run Cert.KernelIdeal.defs _ _).mono
      (fun r h c => ⟨(h c).1.trans (Cert.KernelIdeal.Whole.result_of_arguments m c), (h c).2⟩)
      (Cert.KernelIdeal.Value.run_blocks (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v48_eq, Cert.ReferenceIdeal.RefValue.result_eq,
      (hagree c).1, (hagree c).2.1, (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
